-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel

variable [Facts]

def fn {F : FTy → Type} [FloatOps F] (main_arg0 : FVec F S500000x2 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  main_v3
-- ==== Kernel.lean ====
abbrev S500000x2 : Shape := ⟨2, ![500000, 2]⟩
abbrev S64 : Shape := ⟨1, ![64]⟩
abbrev S_ : Shape := ⟨0, ![]⟩
abbrev S64x4 : Shape := ⟨2, ![64, 4]⟩
abbrev S256 : Shape := ⟨1, ![256]⟩
abbrev S128 : Shape := ⟨1, ![128]⟩
abbrev S1x128 : Shape := ⟨2, ![1, 128]⟩
abbrev S500000x256 : Shape := ⟨2, ![500000, 256]⟩
abbrev S4000x2 : Shape := ⟨2, ![4000, 2]⟩
abbrev S4000x256 : Shape := ⟨2, ![4000, 256]⟩
abbrev S4000x128 : Shape := ⟨2, ![4000, 128]⟩
abbrev S4000x1 : Shape := ⟨2, ![4000, 1]⟩
abbrev S500000x1x256 : Shape := ⟨3, ![500000, 1, 256]⟩
abbrev S500000x1 : Shape := ⟨2, ![500000, 1]⟩
abbrev S500000x1x1x2 : Shape := ⟨4, ![500000, 1, 1, 2]⟩

abbrev nBuf : Space → Nat
  | .hbm => 121
  | .vmem => 6
  | .smem => 0
  | _ => 0

abbrev bufTy : (tb : Table) → Fin (tcTables nBuf tb) → BufTy
  | .hbm, ⟨0, _⟩ => ⟨S500000x2, .f32⟩
  | .hbm, ⟨1, _⟩ => ⟨S64, .i32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S64, .i1⟩
  | .hbm, ⟨9, _⟩ => ⟨S64, .i1⟩
  | .hbm, ⟨10, _⟩ => ⟨S_, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S64, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S64, .i32⟩
  | .hbm, ⟨40, _⟩ => ⟨S_, .i32⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S64, .i32⟩
  | .hbm, ⟨53, _⟩ => ⟨S_, .i32⟩
  | .hbm, ⟨54, _⟩ => ⟨S_, .i32⟩
  | .hbm, ⟨55, _⟩ => ⟨S64, .i32⟩
  | .hbm, ⟨56, _⟩ => ⟨S64, .i32⟩
  | .hbm, ⟨57, _⟩ => ⟨S_, .i32⟩
  | .hbm, ⟨58, _⟩ => ⟨S64, .i32⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S_, .i32⟩
  | .hbm, ⟨63, _⟩ => ⟨S64, .i32⟩
  | .hbm, ⟨64, _⟩ => ⟨S64, .i1⟩
  | .hbm, ⟨65, _⟩ => ⟨S64, .i32⟩
  | .hbm, ⟨66, _⟩ => ⟨S_, .i32⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S_, .i32⟩
  | .hbm, ⟨71, _⟩ => ⟨S64, .i32⟩
  | .hbm, ⟨72, _⟩ => ⟨S64, .i32⟩
  | .hbm, ⟨73, _⟩ => ⟨S64, .i32⟩
  | .hbm, ⟨74, _⟩ => ⟨S64, .i32⟩
  | .hbm, ⟨75, _⟩ => ⟨S_, .i32⟩
  | .hbm, ⟨76, _⟩ => ⟨S64, .i32⟩
  | .hbm, ⟨77, _⟩ => ⟨S64, .i1⟩
  | .hbm, ⟨78, _⟩ => ⟨S64, .i32⟩
  | .hbm, ⟨79, _⟩ => ⟨S_, .i32⟩
  | .hbm, ⟨80, _⟩ => ⟨S_, .i32⟩
  | .hbm, ⟨81, _⟩ => ⟨S64, .i32⟩
  | .hbm, ⟨82, _⟩ => ⟨S64, .i32⟩
  | .hbm, ⟨83, _⟩ => ⟨S_, .i32⟩
  | .hbm, ⟨84, _⟩ => ⟨S64, .i32⟩
  | .hbm, ⟨85, _⟩ => ⟨S64, .i32⟩
  | .hbm, ⟨86, _⟩ => ⟨S64, .i32⟩
  | .hbm, ⟨87, _⟩ => ⟨S64, .i32⟩
  | .hbm, ⟨88, _⟩ => ⟨S_, .i32⟩
  | .hbm, ⟨89, _⟩ => ⟨S64, .i32⟩
  | .hbm, ⟨90, _⟩ => ⟨S64, .i1⟩
  | .hbm, ⟨91, _⟩ => ⟨S64, .i32⟩
  | .hbm, ⟨92, _⟩ => ⟨S_, .i32⟩
  | .hbm, ⟨93, _⟩ => ⟨S_, .i32⟩
  | .hbm, ⟨94, _⟩ => ⟨S64, .i32⟩
  | .hbm, ⟨95, _⟩ => ⟨S64, .i32⟩
  | .hbm, ⟨96, _⟩ => ⟨S64, .f32⟩
  | .hbm, ⟨97, _⟩ => ⟨S64x4, .f32⟩
  | .hbm, ⟨98, _⟩ => ⟨S256, .f32⟩
  | .hbm, ⟨99, _⟩ => ⟨S128, .f32⟩
  | .hbm, ⟨100, _⟩ => ⟨S1x128, .f32⟩
  | .hbm, ⟨101, _⟩ => ⟨S128, .i32⟩
  | .hbm, ⟨102, _⟩ => ⟨S_, .i32⟩
  | .hbm, ⟨103, _⟩ => ⟨S128, .i32⟩
  | .hbm, ⟨104, _⟩ => ⟨S128, .i32⟩
  | .hbm, ⟨105, _⟩ => ⟨S_, .i32⟩
  | .hbm, ⟨106, _⟩ => ⟨S128, .i32⟩
  | .hbm, ⟨107, _⟩ => ⟨S128, .i1⟩
  | .hbm, ⟨108, _⟩ => ⟨S_, .f32⟩
  | .hbm, ⟨109, _⟩ => ⟨S_, .f32⟩
  | .hbm, ⟨110, _⟩ => ⟨S128, .f32⟩
  | .hbm, ⟨111, _⟩ => ⟨S128, .f32⟩
  | .hbm, ⟨112, _⟩ => ⟨S128, .f32⟩
  | .hbm, ⟨113, _⟩ => ⟨S128, .f32⟩
  | .hbm, ⟨114, _⟩ => ⟨S1x128, .f32⟩
  | .hbm, ⟨115, _⟩ => ⟨S500000x256, .f32⟩
  | .hbm, ⟨116, _⟩ => ⟨S500000x1x256, .f32⟩
  | .hbm, ⟨117, _⟩ => ⟨S_, .i1⟩
  | .hbm, ⟨118, _⟩ => ⟨S500000x1, .i1⟩
  | .hbm, ⟨119, _⟩ => ⟨S_, .f32⟩
  | .hbm, ⟨120, _⟩ => ⟨S500000x1x1x2, .f32⟩
  | .local _ .vmem, ⟨0, _⟩ => ⟨S1x128, .f32⟩
  | .local _ .vmem, ⟨1, _⟩ => ⟨S1x128, .f32⟩
  | .local _ .vmem, ⟨2, _⟩ => ⟨S4000x2, .f32⟩
  | .local _ .vmem, ⟨3, _⟩ => ⟨S4000x2, .f32⟩
  | .local _ .vmem, ⟨4, _⟩ => ⟨S4000x256, .f32⟩
  | .local _ .vmem, ⟨5, _⟩ => ⟨S4000x256, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_2 : Ref sig .tc := ⟨.hbm, 10, rfl⟩
abbrev main_c_3 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_c_4 : Ref sig .tc := ⟨.hbm, 15, rfl⟩
abbrev main_v7 : Ref sig .tc := ⟨.hbm, 16, rfl⟩
abbrev main_v8 : Ref sig .tc := ⟨.hbm, 17, rfl⟩
abbrev main_c_5 : Ref sig .tc := ⟨.hbm, 18, rfl⟩
abbrev main_v9 : Ref sig .tc := ⟨.hbm, 19, rfl⟩
abbrev main_v10 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_c_6 : Ref sig .tc := ⟨.hbm, 25, rfl⟩
abbrev main_c_7 : Ref sig .tc := ⟨.hbm, 26, rfl⟩
abbrev main_v12 : Ref sig .tc := ⟨.hbm, 27, rfl⟩
abbrev main_c_8 : Ref sig .tc := ⟨.hbm, 28, rfl⟩
abbrev main_v13 : Ref sig .tc := ⟨.hbm, 29, rfl⟩
abbrev main_v14 : Ref sig .tc := ⟨.hbm, 30, rfl⟩
abbrev main_c_9 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_v19 : Ref sig .tc := ⟨.hbm, 39, rfl⟩
abbrev main_v20 : Ref sig .tc := ⟨.hbm, 40, rfl⟩
abbrev main_c_10 : Ref sig .tc := ⟨.hbm, 41, rfl⟩
abbrev main_v21 : Ref sig .tc := ⟨.hbm, 42, rfl⟩
abbrev main_v22 : Ref sig .tc := ⟨.hbm, 43, rfl⟩
abbrev main_c_11 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_v27 : Ref sig .tc := ⟨.hbm, 52, rfl⟩
abbrev main_v28 : Ref sig .tc := ⟨.hbm, 53, rfl⟩
abbrev main_c_12 : Ref sig .tc := ⟨.hbm, 54, rfl⟩
abbrev main_v29 : Ref sig .tc := ⟨.hbm, 55, rfl⟩
abbrev main_v30 : Ref sig .tc := ⟨.hbm, 56, rfl⟩
abbrev main_c_13 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call4_c : Ref sig .tc := ⟨.hbm, 62, rfl⟩
abbrev main_call4_v0 : Ref sig .tc := ⟨.hbm, 63, rfl⟩
abbrev main_call4_v1 : Ref sig .tc := ⟨.hbm, 64, rfl⟩
abbrev main_v35 : Ref sig .tc := ⟨.hbm, 65, rfl⟩
abbrev main_v36 : Ref sig .tc := ⟨.hbm, 66, rfl⟩
abbrev main_c_14 : Ref sig .tc := ⟨.hbm, 67, rfl⟩
abbrev main_v37 : Ref sig .tc := ⟨.hbm, 68, rfl⟩
abbrev main_v38 : Ref sig .tc := ⟨.hbm, 69, rfl⟩
abbrev main_c_15 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_v43 : Ref sig .tc := ⟨.hbm, 78, rfl⟩
abbrev main_v44 : Ref sig .tc := ⟨.hbm, 79, rfl⟩
abbrev main_c_16 : Ref sig .tc := ⟨.hbm, 80, rfl⟩
abbrev main_v45 : Ref sig .tc := ⟨.hbm, 81, rfl⟩
abbrev main_v46 : Ref sig .tc := ⟨.hbm, 82, rfl⟩
abbrev main_c_17 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call6_c : Ref sig .tc := ⟨.hbm, 88, rfl⟩
abbrev main_call6_v0 : Ref sig .tc := ⟨.hbm, 89, rfl⟩
abbrev main_call6_v1 : Ref sig .tc := ⟨.hbm, 90, rfl⟩
abbrev main_v51 : Ref sig .tc := ⟨.hbm, 91, rfl⟩
abbrev main_v52 : Ref sig .tc := ⟨.hbm, 92, rfl⟩
abbrev main_c_18 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_19 : Ref sig .tc := ⟨.hbm, 102, rfl⟩
abbrev main_v61 : Ref sig .tc := ⟨.hbm, 103, rfl⟩
abbrev main_v62 : Ref sig .tc := ⟨.hbm, 104, rfl⟩
abbrev main_c_20 : Ref sig .tc := ⟨.hbm, 105, rfl⟩
abbrev main_v63 : Ref sig .tc := ⟨.hbm, 106, rfl⟩
abbrev main_v64 : Ref sig .tc := ⟨.hbm, 107, rfl⟩
abbrev main_cst : Ref sig .tc := ⟨.hbm, 108, rfl⟩
abbrev main_cst_21 : Ref sig .tc := ⟨.hbm, 109, rfl⟩
abbrev main_call7_v0 : Ref sig .tc := ⟨.hbm, 110, rfl⟩
abbrev main_call7_v1 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_22 : Ref sig .tc := ⟨.hbm, 117, rfl⟩
abbrev main_v70 : Ref sig .tc := ⟨.hbm, 118, rfl⟩
abbrev main_cst_23 : Ref sig .tc := ⟨.hbm, 119, rfl⟩
abbrev main_v71 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x4_0 : S64.BroadcastsInDim S64x4 (![0] : Fin 1 → Fin S64x4.rank)
  shapeCasts_S64x4_S256 : S64x4.ShapeCasts S256
  slices_S256_S128_0 : S256.Slices ![0] S128
  shapeCasts_S128_S1x128 : S128.ShapeCasts S1x128
  bcast_S_S128 : S_.BroadcastsInDim S128 (![] : Fin 0 → Fin S128.rank)
  inb_S4000x2_S4000x2_0_0 : ∀ a, (![0, 0] : Fin 2 → Nat) a + S4000x2.size a ≤ S4000x2.size a
  h_S4000x2 : 0 < S4000x2.numel
  iota_S4000x128_d1_w32 : S4000x128.Iotas .tc 32 [1]
  slices_S4000x2_o0_1_S4000x1 : S4000x2.Slices ![0, 1] S4000x1
  slices_S4000x2_o0_0_S4000x1 : S4000x2.Slices ![0, 0] S4000x1
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x256_S4000x128_0_0 : ∀ a, (![0, 0] : Fin 2 → Nat) a + S4000x128.size a ≤ S4000x256.size a
  h_S4000x128 : 0 < S4000x128.numel
  inb_S4000x256_S4000x128_0_128 : ∀ a, (![0, 128] : Fin 2 → Nat) a + S4000x128.size a ≤ S4000x256.size a
  shapeCasts_S500000x256_S500000x1x256 : S500000x256.ShapeCasts S500000x1x256
  bcast_S_S500000x1 : S_.BroadcastsInDim S500000x1 (![] : Fin 0 → Fin S500000x1.rank)
  bcast_S_S500000x1x1x2 : S_.BroadcastsInDim S500000x1x1x2 (![] : Fin 0 → Fin S500000x1x1x2.rank)
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x2.size a ≤ S500000x2.size a
  hwx0_2 : ∀ i : grid0.Coords, EltTy.bits .f32 = 32 ∨ (Rect.block (s := S500000x2) S4000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S500000x256.size a
  hwx0_3 : ∀ i : grid0.Coords, EltTy.bits .f32 = 32 ∨ (Rect.block (s := S500000x256) S4000x256.size (cc0_transform_3 i) (hinb0_3 i)).WholeWords (EltTy.packing .f32)

variable [Facts₀]

abbrev win0_0 : Pipeline.Window sig grid0 :=
  Pipeline.Window.ofSpec (Memref.whole main_v59) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v67) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v68) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x2 : Shape := ⟨2, ![500000, 2]⟩
abbrev S_ : Shape := ⟨0, ![]⟩
abbrev S64 : Shape := ⟨1, ![64]⟩
abbrev S500000x1 : Shape := ⟨2, ![500000, 1]⟩
abbrev S1x64 : Shape := ⟨2, ![1, 64]⟩
abbrev S500000x64 : Shape := ⟨2, ![500000, 64]⟩
abbrev S500000x64x1 : Shape := ⟨3, ![500000, 64, 1]⟩
abbrev S500000x64x4 : Shape := ⟨3, ![500000, 64, 4]⟩
abbrev S500000x1x256 : Shape := ⟨3, ![500000, 1, 256]⟩
abbrev S500000x1x1x2 : Shape := ⟨4, ![500000, 1, 1, 2]⟩

abbrev nBuf : Space → Nat
  | .hbm => 124
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S_, .f32⟩
  | .hbm, ⟨2, _⟩ => ⟨S500000x2, .f32⟩
  | .hbm, ⟨3, _⟩ => ⟨S500000x2, .f32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S64, .i1⟩
  | .hbm, ⟨12, _⟩ => ⟨S64, .i1⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i1⟩
  | .hbm, ⟨27, _⟩ => ⟨S64, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i1⟩
  | .hbm, ⟨42, _⟩ => ⟨S64, .i32⟩
  | .hbm, ⟨43, _⟩ => ⟨S_, .i32⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S_, .i32⟩
  | .hbm, ⟨53, _⟩ => ⟨S64, .i32⟩
  | .hbm, ⟨54, _⟩ => ⟨S64, .i1⟩
  | .hbm, ⟨55, _⟩ => ⟨S64, .i32⟩
  | .hbm, ⟨56, _⟩ => ⟨S_, .i32⟩
  | .hbm, ⟨57, _⟩ => ⟨S_, .i32⟩
  | .hbm, ⟨58, _⟩ => ⟨S64, .i32⟩
  | .hbm, ⟨59, _⟩ => ⟨S64, .i32⟩
  | .hbm, ⟨60, _⟩ => ⟨S_, .i32⟩
  | .hbm, ⟨61, _⟩ => ⟨S64, .i32⟩
  | .hbm, ⟨62, _⟩ => ⟨S64, .i32⟩
  | .hbm, ⟨63, _⟩ => ⟨S64, .i32⟩
  | .hbm, ⟨64, _⟩ => ⟨S64, .i32⟩
  | .hbm, ⟨65, _⟩ => ⟨S_, .i32⟩
  | .hbm, ⟨66, _⟩ => ⟨S64, .i32⟩
  | .hbm, ⟨67, _⟩ => ⟨S64, .i1⟩
  | .hbm, ⟨68, _⟩ => ⟨S64, .i32⟩
  | .hbm, ⟨69, _⟩ => ⟨S_, .i32⟩
  | .hbm, ⟨70, _⟩ => ⟨S_, .i32⟩
  | .hbm, ⟨71, _⟩ => ⟨S64, .i32⟩
  | .hbm, ⟨72, _⟩ => ⟨S64, .i32⟩
  | .hbm, ⟨73, _⟩ => ⟨S_, .i32⟩
  | .hbm, ⟨74, _⟩ => ⟨S64, .i32⟩
  | .hbm, ⟨75, _⟩ => ⟨S64, .i32⟩
  | .hbm, ⟨76, _⟩ => ⟨S64, .i32⟩
  | .hbm, ⟨77, _⟩ => ⟨S64, .i32⟩
  | .hbm, ⟨78, _⟩ => ⟨S_, .i32⟩
  | .hbm, ⟨79, _⟩ => ⟨S64, .i32⟩
  | .hbm, ⟨80, _⟩ => ⟨S64, .i1⟩
  | .hbm, ⟨81, _⟩ => ⟨S64, .i32⟩
  | .hbm, ⟨82, _⟩ => ⟨S_, .i32⟩
  | .hbm, ⟨83, _⟩ => ⟨S_, .i32⟩
  | .hbm, ⟨84, _⟩ => ⟨S64, .i32⟩
  | .hbm, ⟨85, _⟩ => ⟨S64, .i32⟩
  | .hbm, ⟨86, _⟩ => ⟨S_, .i32⟩
  | .hbm, ⟨87, _⟩ => ⟨S64, .i32⟩
  | .hbm, ⟨88, _⟩ => ⟨S64, .i32⟩
  | .hbm, ⟨89, _⟩ => ⟨S64, .i32⟩
  | .hbm, ⟨90, _⟩ => ⟨S64, .i32⟩
  | .hbm, ⟨91, _⟩ => ⟨S_, .i32⟩
  | .hbm, ⟨92, _⟩ => ⟨S64, .i32⟩
  | .hbm, ⟨93, _⟩ => ⟨S64, .i1⟩
  | .hbm, ⟨94, _⟩ => ⟨S64, .i32⟩
  | .hbm, ⟨95, _⟩ => ⟨S_, .i32⟩
  | .hbm, ⟨96, _⟩ => ⟨S_, .i32⟩
  | .hbm, ⟨97, _⟩ => ⟨S64, .i32⟩
  | .hbm, ⟨98, _⟩ => ⟨S64, .i32⟩
  | .hbm, ⟨99, _⟩ => ⟨S64, .f32⟩
  | .hbm, ⟨100, _⟩ => ⟨S500000x1, .f32⟩
  | .hbm, ⟨101, _⟩ => ⟨S1x64, .f32⟩
  | .hbm, ⟨102, _⟩ => ⟨S500000x64, .f32⟩
  | .hbm, ⟨103, _⟩ => ⟨S500000x64, .f32⟩
  | .hbm, ⟨104, _⟩ => ⟨S500000x64, .f32⟩
  | .hbm, ⟨105, _⟩ => ⟨S500000x1, .f32⟩
  | .hbm, ⟨106, _⟩ => ⟨S1x64, .f32⟩
  | .hbm, ⟨107, _⟩ => ⟨S500000x64, .f32⟩
  | .hbm, ⟨108, _⟩ => ⟨S500000x64, .f32⟩
  | .hbm, ⟨109, _⟩ => ⟨S500000x64, .f32⟩
  | .hbm, ⟨110, _⟩ => ⟨S500000x64, .f32⟩
  | .hbm, ⟨111, _⟩ => ⟨S500000x64, .f32⟩
  | .hbm, ⟨112, _⟩ => ⟨S500000x64, .f32⟩
  | .hbm, ⟨113, _⟩ => ⟨S500000x64, .f32⟩
  | .hbm, ⟨114, _⟩ => ⟨S500000x64x1, .f32⟩
  | .hbm, ⟨115, _⟩ => ⟨S500000x64x1, .f32⟩
  | .hbm, ⟨116, _⟩ => ⟨S500000x64x1, .f32⟩
  | .hbm, ⟨117, _⟩ => ⟨S500000x64x1, .f32⟩
  | .hbm, ⟨118, _⟩ => ⟨S500000x64x4, .f32⟩
  | .hbm, ⟨119, _⟩ => ⟨S500000x1x256, .f32⟩
  | .hbm, ⟨120, _⟩ => ⟨S_, .i1⟩
  | .hbm, ⟨121, _⟩ => ⟨S500000x1, .i1⟩
  | .hbm, ⟨122, _⟩ => ⟨S_, .f32⟩
  | .hbm, ⟨123, _⟩ => ⟨S500000x1x1x2, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_c_6 : Ref sig .tc := ⟨.hbm, 28, rfl⟩
abbrev main_c_7 : Ref sig .tc := ⟨.hbm, 29, rfl⟩
abbrev main_v14 : Ref sig .tc := ⟨.hbm, 30, rfl⟩
abbrev main_c_8 : Ref sig .tc := ⟨.hbm, 31, rfl⟩
abbrev main_v15 : Ref sig .tc := ⟨.hbm, 32, rfl⟩
abbrev main_v16 : Ref sig .tc := ⟨.hbm, 33, rfl⟩
abbrev main_c_9 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_v21 : Ref sig .tc := ⟨.hbm, 42, rfl⟩
abbrev main_v22 : Ref sig .tc := ⟨.hbm, 43, rfl⟩
abbrev main_c_10 : Ref sig .tc := ⟨.hbm, 44, rfl⟩
abbrev main_v23 : Ref sig .tc := ⟨.hbm, 45, rfl⟩
abbrev main_v24 : Ref sig .tc := ⟨.hbm, 46, rfl⟩
abbrev main_c_11 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_v29 : Ref sig .tc := ⟨.hbm, 55, rfl⟩
abbrev main_v30 : Ref sig .tc := ⟨.hbm, 56, rfl⟩
abbrev main_c_12 : Ref sig .tc := ⟨.hbm, 57, rfl⟩
abbrev main_v31 : Ref sig .tc := ⟨.hbm, 58, rfl⟩
abbrev main_v32 : Ref sig .tc := ⟨.hbm, 59, rfl⟩
abbrev main_c_13 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call4_c : Ref sig .tc := ⟨.hbm, 65, rfl⟩
abbrev main_call4_v0 : Ref sig .tc := ⟨.hbm, 66, rfl⟩
abbrev main_call4_v1 : Ref sig .tc := ⟨.hbm, 67, rfl⟩
abbrev main_v37 : Ref sig .tc := ⟨.hbm, 68, rfl⟩
abbrev main_v38 : Ref sig .tc := ⟨.hbm, 69, rfl⟩
abbrev main_c_14 : Ref sig .tc := ⟨.hbm, 70, rfl⟩
abbrev main_v39 : Ref sig .tc := ⟨.hbm, 71, rfl⟩
abbrev main_v40 : Ref sig .tc := ⟨.hbm, 72, rfl⟩
abbrev main_c_15 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call5_c : Ref sig .tc := ⟨.hbm, 78, rfl⟩
abbrev main_call5_v0 : Ref sig .tc := ⟨.hbm, 79, rfl⟩
abbrev main_call5_v1 : Ref sig .tc := ⟨.hbm, 80, rfl⟩
abbrev main_v45 : Ref sig .tc := ⟨.hbm, 81, rfl⟩
abbrev main_v46 : Ref sig .tc := ⟨.hbm, 82, rfl⟩
abbrev main_c_16 : Ref sig .tc := ⟨.hbm, 83, rfl⟩
abbrev main_v47 : Ref sig .tc := ⟨.hbm, 84, rfl⟩
abbrev main_v48 : Ref sig .tc := ⟨.hbm, 85, rfl⟩
abbrev main_c_17 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call6_c : Ref sig .tc := ⟨.hbm, 91, rfl⟩
abbrev main_call6_v0 : Ref sig .tc := ⟨.hbm, 92, rfl⟩
abbrev main_call6_v1 : Ref sig .tc := ⟨.hbm, 93, rfl⟩
abbrev main_v53 : Ref sig .tc := ⟨.hbm, 94, rfl⟩
abbrev main_v54 : Ref sig .tc := ⟨.hbm, 95, rfl⟩
abbrev main_c_18 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_19 : Ref sig .tc := ⟨.hbm, 120, rfl⟩
abbrev main_v78 : Ref sig .tc := ⟨.hbm, 121, rfl⟩
abbrev main_cst_20 : Ref sig .tc := ⟨.hbm, 122, rfl⟩
abbrev main_v79 : Ref sig .tc := ⟨.hbm, 123, rfl⟩

abbrev nD : Nat := 1
abbrev τ : Topo := Topo.v7x

variable {F : FTy → Type} [FloatOps F]

class Facts₀ : Prop where
  bcast_S_S500000x2 : S_.BroadcastsInDim S500000x2 (![] : Fin 0 → Fin S500000x2.rank)
  bcast_S_S64 : S_.BroadcastsInDim S64 (![] : Fin 0 → Fin S64.rank)
  slices_S500000x2_S500000x1_0_0 : S500000x2.Slices ![0, 0] S500000x1
  bcast_S64_S1x64_1 : S64.BroadcastsInDim S1x64 (![1] : Fin 1 → Fin S1x64.rank)
  bcast_S500000x1_S500000x64_0_1 : S500000x1.BroadcastsInDim S500000x64 (![0, 1] : Fin 2 → Fin S500000x64.rank)
  bcast_S1x64_S500000x64_0_1 : S1x64.BroadcastsInDim S500000x64 (![0, 1] : Fin 2 → Fin S500000x64.rank)
  slices_S500000x2_S500000x1_0_1 : S500000x2.Slices ![0, 1] S500000x1
  bcast_S500000x64_S500000x64x1_0_1 : S500000x64.BroadcastsInDim S500000x64x1 (![0, 1] : Fin 2 → Fin S500000x64x1.rank)
  concatenates_S500000x64x1_S500000x64x1_S500000x64x1_S500000x64x1_S500000x64x4_d2 : Shape.Concatenates [S500000x64x1, S500000x64x1, S500000x64x1, S500000x64x1] S500000x64x4 2
  shapeCasts_S500000x64x4_S500000x1x256 : S500000x64x4.ShapeCasts S500000x1x256
  bcast_S_S500000x1 : S_.BroadcastsInDim S500000x1 (![] : Fin 0 → Fin S500000x1.rank)
  bcast_S_S500000x1x1x2 : S_.BroadcastsInDim S500000x1x1x2 (![] : Fin 0 → Fin S500000x1x1x2.rank)

variable [Facts₀]

class Facts : Prop extends Facts₀ where

variable [Facts]
-- ==== Proof.Spec.lean ====
/-
  The positional encoding as ONE function of the latitude/longitude array and a table of 64 scales.

  Output lane `j` of row `b` (256 lanes, four per scale) is a sine on the even lanes and a cosine on the odd
  ones, of the angle `x[b, (j / 2) % 2] · (π/180)` (latitude on lanes 0, 1 of each group of four, longitude on
  lanes 2, 3) times the scale `sc[j / 4]`: `feat`. The kernel only computes that for the first 128 lanes and
  fills the other 128 with the pattern 0, 1, 0, 1, …: `featK`. The two agree as soon as the scales of index
  32 and above are zero, because on the extended reals `a · 0 = 0` for EVERY `a` (the infinities included),
  `sin 0 = 0` and `cos 0 = 1`: `featK_eq_feat`.
-/
import Idealize.ShloMosaic.PureOps.Ideal
import Idealize.ShloMosaic.PureOps.Ideal.Laws
import Idealize.ShloMosaic.Lib.ValueIdx

noncomputable section

namespace Cert.PosEnc

open Idealize.ShloMosaic Idealize.ShloMosaic.ValueIdx

/-- The latitude/longitude array: 500000 rows of two angles in degrees. -/
abbrev SIn : Shape := ⟨2, ![500000, 2]⟩
/-- The table of scales. -/
abbrev SSc : Shape := ⟨1, ![64]⟩
/-- The feature array. -/
abbrev SOut : Shape := ⟨3, ![500000, 1, 256]⟩

/-- The single-precision `π/180`, as the real number its pattern denotes. -/
def degRad : EReal := Ideal.ofBits .f32 0x3C8EFA35#32

/-- A sine on the even lanes, a cosine on the odd ones. -/
def trig (j : Nat) (a : EReal) : EReal := if j % 2 = 1 then Ideal.cos a else Ideal.sin a

/-- Which of the two angles lane `j` reads: latitude (0) on lanes 0, 1 of each four, longitude (1) on lanes 2, 3. -/
def coordOf (j : Nat) : Fin 2 := ⟨(j / 2) % 2, Nat.mod_lt _ (by decide)⟩

/-- Which scale lane `j` reads: four lanes per scale. -/
def scaleOf (j : Fin 256) : Fin 64 := ⟨j.val / 4, by have := j.isLt; omega⟩

/-- Lane `j` of row `b`: the sine or cosine of angle (in radians) times scale. -/
def feat (x : SIn.Idx → EReal) (sc : SSc.Idx → EReal) (b : Fin 500000) (j : Fin 256) : EReal :=
  trig j.val ((x (ix2 b (coordOf j.val)) * degRad) * sc (ix1 (scaleOf j)))

/-- The same with the upper 128 lanes filled by the constant pattern 0, 1, 0, 1, …. -/
def featK (x : SIn.Idx → EReal) (sc : SSc.Idx → EReal) (b : Fin 500000) (j : Fin 256) : EReal :=
  if j.val < 128 then feat x sc b j else (if j.val % 2 = 1 then 1 else 0)

/-- The feature array, every lane computed. -/
def G (x : SIn.Idx → EReal) (sc : SSc.Idx → EReal) : SOut.Idx → EReal := fun i => feat x sc (i 0) (i 2)

/-- The feature array, upper lanes constant. -/
def GK (x : SIn.Idx → EReal) (sc : SSc.Idx → EReal) : SOut.Idx → EReal := fun i => featK x sc (i 0) (i 2)

theorem sin_zero : Ideal.sin 0 = 0 := by
  show Ideal.sin ((0 : ℝ) : EReal) = 0
  rw [Ideal.sin_coe, Real.sin_zero]; rfl

theorem cos_zero : Ideal.cos 0 = 1 := by
  show Ideal.cos ((0 : ℝ) : EReal) = 1
  rw [Ideal.cos_coe, Real.cos_zero]; rfl

/-- At the angle zero the lanes read 0, 1, 0, 1, …. -/
theorem trig_zero (j : Nat) : trig j 0 = if j % 2 = 1 then 1 else 0 := by
  unfold trig
  split
  · exact cos_zero
  · exact sin_zero

/-- With the scales from index 32 on all zero, the constant upper lanes ARE the computed ones: the angle there is
    `a · 0 = 0` whatever `a` is. -/
theorem featK_eq_feat (x : SIn.Idx → EReal) (sc : SSc.Idx → EReal)
    (hsc : ∀ s : Fin 64, 32 ≤ s.val → sc (ix1 s) = 0) (b : Fin 500000) (j : Fin 256) :
    featK x sc b j = feat x sc b j := by
  unfold featK
  split
  · rfl
  · next hj =>
    unfold feat
    have h32 : 32 ≤ (scaleOf j).val := by show 32 ≤ j.val / 4; omega
    rw [hsc (scaleOf j) h32, mul_zero, trig_zero]

theorem GK_eq_G (x : SIn.Idx → EReal) (sc : SSc.Idx → EReal)
    (hsc : ∀ s : Fin 64, 32 ≤ s.val → sc (ix1 s) = 0) : GK x sc = G x sc :=
  funext fun i => featK_eq_feat x sc hsc (i 0) (i 2)

end Cert.PosEnc

end
-- ==== Proof.KernelBlock.lean ====
/-
  What one grid point of the kernel leaves in its output block, index by index.

  The block is 4000 rows by 256 lanes. Its left half (lanes 0 … 127) is the first store's value: with `j` the
  lane, the sine (even `j`) or cosine (odd `j`) of the row's latitude (bit 1 of `j` clear) or longitude (bit 1
  set), in radians, times entry `j` of the first operand, the row of 128 scales. Its right half (lanes 128 … 255)
  is the second store's value: entry `j - 128` of the second operand, the row of 128 constants, whatever the row.
  The lane tests are the kernel's own: `j & 2 ≠ 0`, `j & 1 ≠ 0` on 32-bit words, decided here for the 128 lanes.
-/
import proofs.«400672_j5978594476425_3_alg».proof.Proof.Gen.KernelIdeal.Frame
import proofs.«400672_j5978594476425_3_alg».proof.Proof.Spec
import Idealize.ShloMosaic.Lib.Pipeline.Value
import Idealize.ShloMosaic.Lib.ValueIdx

set_option maxRecDepth 16384

noncomputable section

namespace Cert.KernelIdeal.Blk

open Idealize.ShloMosaic Idealize.ShloMosaic.ValueIdx Cert.KernelIdeal Cert.KernelIdeal.Gen Cert.PosEnc

/-! ## The lane tests -/

/-- Bit 1 of the lane number, as the kernel tests it. -/
theorem lane_lon : ∀ l : Fin 128, IntOp.cmpi .ne (IntOp.andi (BitVec.ofNat 32 l.val) 2#32) 0#32
    = if (l.val / 2) % 2 = 1 then 1#1 else 0#1 := by decide +kernel

/-- Bit 0 of the lane number, as the kernel tests it. -/
theorem lane_cos : ∀ l : Fin 128, IntOp.cmpi .ne (IntOp.andi (BitVec.ofNat 32 l.val) 1#32) 0#32
    = if l.val % 2 = 1 then 1#1 else 0#1 := by decide +kernel

/-! ## The layout operations of the body, read at (row, lane) -/

section Layout
variable {α : Type}

/-- A column [4000, 1] spread over 128 lanes reads the column's entry of the row. -/
theorem col_apply (v : S4000x1.Idx → α) (r : Fin 4000) (l : Fin 128) :
    broadcastTo S4000x128 (shapeCast S4000x1 v shapeCasts_S4000x1_S4000x1) broadcasts_S4000x1_S4000x128 (ix2 r l)
      = v (ix2 r (0 : Fin 1)) := by
  rw [shapeCast_self]
  exact broadcastTo_apply v broadcasts_S4000x1_S4000x128 (ix2 r l) (ix2 r (0 : Fin 1)) (fun a => match a with
    | ⟨0, _⟩ => by show r.val = if (4000 : Nat) = 1 then 0 else r.val; rw [if_neg (by decide)]
    | ⟨1, _⟩ => by show (0 : Nat) = if (1 : Nat) = 1 then 0 else l.val; rw [if_pos rfl])

/-- A row [1, 128] spread over 4000 rows reads the row's entry of the lane. -/
theorem row_apply (v : S1x128.Idx → α) (r : Fin 4000) (l : Fin 128) :
    broadcastTo S4000x128 (shapeCast S1x128 v shapeCasts_S1x128_S1x128) broadcasts_S1x128_S4000x128 (ix2 r l)
      = v (ix2 (0 : Fin 1) l) := by
  rw [shapeCast_self]
  exact broadcastTo_apply v broadcasts_S1x128_S4000x128 (ix2 r l) (ix2 (0 : Fin 1) l) (fun a => match a with
    | ⟨0, _⟩ => by show (0 : Nat) = if (1 : Nat) = 1 then 0 else r.val; rw [if_pos rfl]
    | ⟨1, _⟩ => by show l.val = if (128 : Nat) = 1 then 0 else l.val; rw [if_neg (by decide)])

/-- Column 1 of a [4000, 2] vector. -/
theorem slice1_apply (v : S4000x2.Idx → α) (r : Fin 4000) :
    extractStridedSlice S4000x1 ![0, 1] v slices_S4000x2_o0_1_S4000x1 (ix2 r (0 : Fin 1)) = v (ix2 r (1 : Fin 2)) :=
  extractStridedSlice_apply ![0, 1] v slices_S4000x2_o0_1_S4000x1 (ix2 r (0 : Fin 1)) (ix2 r (1 : Fin 2)) (fun a => match a with
    | ⟨0, _⟩ => by show r.val = 0 + r.val; omega
    | ⟨1, _⟩ => by show (1 : Nat) = 1 + 0; rfl)

/-- Column 0 of a [4000, 2] vector. -/
theorem slice0_apply (v : S4000x2.Idx → α) (r : Fin 4000) :
    extractStridedSlice S4000x1 ![0, 0] v slices_S4000x2_o0_0_S4000x1 (ix2 r (0 : Fin 1)) = v (ix2 r (0 : Fin 2)) :=
  extractStridedSlice_apply ![0, 0] v slices_S4000x2_o0_0_S4000x1 (ix2 r (0 : Fin 1)) (ix2 r (0 : Fin 2)) (fun a => match a with
    | ⟨0, _⟩ => by show r.val = 0 + r.val; omega
    | ⟨1, _⟩ => by show (0 : Nat) = 0 + 0; rfl)

end Layout

/-- The lane number, as the body's `iota` along the lanes gives it. -/
theorem iota_apply (r : Fin 4000) (l : Fin 128) :
    iota .tc S4000x128 32 [1] iota_S4000x128_d1_w32 (ix2 r l) = BitVec.ofNat 32 l.val :=
  iota_single_apply .tc S4000x128 32 1 iota_S4000x128_d1_w32 (ix2 r l)

/-! ## The two stores' values -/

/-- The first store's value at (row, lane): sine or cosine of the row's angle in radians times the lane's scale. -/
theorem pay1_apply (v0 : Vec Ideal S4000x2 .f32) (v19 : Vec Ideal S1x128 .f32) (r : Fin 4000) (l : Fin 128) :
    k0_pay1 (F := Ideal) v0 v19 (ix2 r l)
      = trig l.val ((v0 (ix2 r (coordOf l.val)) * degRad) * v19 (ix2 (0 : Fin 1) l)) := by
  unfold k0_pay1
  simp only [select, cmpi, andi, broadcast, mulf, Idealize.ShloMosaic.cos, Idealize.ShloMosaic.sin]
  rw [iota_apply, lane_lon l, lane_cos l, col_apply, col_apply, row_apply, slice1_apply, slice0_apply]
  simp only [Ideal.mulf_def, Ideal.cos_def, Ideal.sin_def]
  unfold trig coordOf degRad
  by_cases h1 : l.val % 2 = 1 <;> by_cases h2 : (l.val / 2) % 2 = 1
  · rw [if_pos h1, if_pos h1, if_pos h2, select_one, select_one]
    have e : (⟨(l.val / 2) % 2, Nat.mod_lt _ (by decide)⟩ : Fin 2) = 1 := Fin.ext h2
    rw [e]; rfl
  · rw [if_pos h1, if_pos h1, if_neg h2, select_one, select_zero]
    have e : (⟨(l.val / 2) % 2, Nat.mod_lt _ (by decide)⟩ : Fin 2) = 0 := Fin.ext (by show (l.val / 2) % 2 = 0; omega)
    rw [e]; rfl
  · rw [if_neg h1, if_neg h1, if_pos h2, select_zero, select_one]
    have e : (⟨(l.val / 2) % 2, Nat.mod_lt _ (by decide)⟩ : Fin 2) = 1 := Fin.ext h2
    rw [e]; rfl
  · rw [if_neg h1, if_neg h1, if_neg h2, select_zero, select_zero]
    have e : (⟨(l.val / 2) % 2, Nat.mod_lt _ (by decide)⟩ : Fin 2) = 0 := Fin.ext (by show (l.val / 2) % 2 = 0; omega)
    rw [e]; rfl

/-- The second store's value at (row, lane): the constants' entry of the lane. -/
theorem pay2_apply (v27 : Vec Ideal S1x128 .f32) (r : Fin 4000) (l : Fin 128) :
    k0_pay2 (F := Ideal) v27 (ix2 r l) = v27 (ix2 (0 : Fin 1) l) := by
  unfold k0_pay2
  show broadcastTo S4000x128 (shapeCast S1x128 (shapeCast S1x128 v27 shapeCasts_S1x128_S1x128) shapeCasts_S1x128_S1x128)
    broadcasts_S1x128_S4000x128 (ix2 r l) = _
  rw [row_apply, shapeCast_self]

end Cert.KernelIdeal.Blk

end
-- ==== Proof.KernelValue.lean ====
/-
  The kernel's feature array after the run, as one function of the three arrays the region reads.

  The grid has 125 points; point `t` reads rows `4000·t … 4000·t + 3999` of the latitude/longitude array and the two
  resident rows (scales, constants) whole, and writes back rows `4000·t …` of the [500000, 256] result. What it writes
  (KernelBlock) is, at (row, lane), a function of the row of the input block and of the lane alone, so every block
  is the restriction of ONE whole-array function `Garr`; the 125 blocks tile the result, hence the result IS `Garr`.
-/
import proofs.«400672_j5978594476425_3_alg».proof.Proof.KernelBlock

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blk Cert.PosEnc

/-! ## One block -/

theorem hz : (![0, 0] : Fin 2 → Nat) = fun _ => 0 := funext fun a => by fin_cases a <;> rfl

/-- What a point leaves in its [4000, 256] block, from the scales row `x0`, the constants row `x1` and its
    [4000, 2] block of angles `x2`. -/
def Bfun (x0 x1 : S1x128.Idx → EReal) (x2 : S4000x2.Idx → EReal) : S4000x256.Idx → EReal := fun y =>
  if (y 1).val < 128 then
    trig (y 1).val ((x2 (ix2 (⟨(y 0).val, idx2_lt0 y⟩ : Fin 4000) (coordOf (y 1).val)) * degRad)
      * x0 (ix2 (0 : Fin 1) (⟨(y 1).val % 128, Nat.mod_lt _ (by decide)⟩ : Fin 128)))
  else x1 (ix2 (0 : Fin 1) (⟨(y 1).val % 128, Nat.mod_lt _ (by decide)⟩ : Fin 128))

/-- The first store's value is `Bfun` on the left half. -/
theorem piece_lo (x0 x1 : S1x128.Idx → EReal) (x2 : S4000x2.Idx → EReal) (x : S4000x128.Idx) :
    k0_pay1 (F := Ideal) (View.ld x2 r0_0) (View.ld x0 r0_1) x = Bfun x0 x1 x2 (r0_2.emb x) := by
  rw [View.ld_unit_zero hz, View.ld_unit_zero hz]
  obtain ⟨r, l, rfl⟩ : ∃ (r : Fin 4000) (l : Fin 128), x = ix2 r l := ⟨x 0, x 1, eq_ix2 x⟩
  rw [pay1_apply]
  unfold Bfun
  have h1 : ((r0_2.emb (ix2 r l)) 1).val = l.val := by show 0 + 1 * l.val = l.val; omega
  have h0 : ((r0_2.emb (ix2 r l)) 0).val = r.val := by show 0 + 1 * r.val = r.val; omega
  have hl : l.val < 128 := l.isLt
  simp only [h0, h1, if_pos hl, Nat.mod_eq_of_lt hl]

/-- The second store's value is `Bfun` on the right half. -/
theorem piece_hi (x0 x1 : S1x128.Idx → EReal) (x2 : S4000x2.Idx → EReal) (x : S4000x128.Idx) :
    k0_pay2 (F := Ideal) (View.ld x1 r0_1) x = Bfun x0 x1 x2 (r0_3.emb x) := by
  rw [View.ld_unit_zero hz]
  obtain ⟨r, l, rfl⟩ : ∃ (r : Fin 4000) (l : Fin 128), x = ix2 r l := ⟨x 0, x 1, eq_ix2 x⟩
  rw [pay2_apply]
  unfold Bfun
  have h1 : ((r0_3.emb (ix2 r l)) 1).val = 128 + l.val := by show 128 + 1 * l.val = 128 + l.val; omega
  have hl : l.val < 128 := l.isLt
  have hn : ¬ 128 + l.val < 128 := by omega
  have hm : (128 + l.val) % 128 = l.val := by omega
  simp only [h1, if_neg hn, hm]

/-- The block after the body is `Bfun` of the three input blocks. -/
theorem out_eq (x0 x1 : Vec Ideal S1x128 .f32) (x2 : Vec Ideal S4000x2 .f32) :
    out0_3 (F := Ideal) x0 x1 x2 = Bfun x0 x1 x2 := by
  funext y
  unfold out0_3
  refine View.canon_apply_of_pieces (Val := Elt Ideal) (e := .f32) (Bfun x0 x1 x2) _ ?_ y (cover0_3 _ _ y)
  intro p hp x
  simp only [List.mem_cons, List.mem_nil_iff, or_false] at hp
  rcases hp with rfl | rfl
  · exact piece_hi x0 x1 x2 x
  · exact piece_lo x0 x1 x2 x

/-! ## The whole array -/

/-- The result array as one function of the angles `x`, the scales row `s` and the constants row `k`. -/
def Garr (x : S500000x2.Idx → EReal) (s k : S1x128.Idx → EReal) : S500000x256.Idx → EReal := fun i =>
  if (i 1).val < 128 then
    trig (i 1).val ((x (ix2 (⟨(i 0).val, idx2_lt0 i⟩ : Fin 500000) (coordOf (i 1).val)) * degRad)
      * s (ix2 (0 : Fin 1) (⟨(i 1).val % 128, Nat.mod_lt _ (by decide)⟩ : Fin 128)))
  else k (ix2 (0 : Fin 1) (⟨(i 1).val % 128, Nat.mod_lt _ (by decide)⟩ : Fin 128))

variable (m : (ℓ : Loc nD τ sig) → Buf (Elt Ideal) ℓ) (ρ : Dev nD → PrngReg)

/-- The arrays the region reads, at their literal types. -/
abbrev xarr (c : Dev nD) : S500000x2.Idx → EReal := V m c main_arg0
abbrev sarr (c : Dev nD) : S1x128.Idx → EReal := V m c main_v59
abbrev karr (c : Dev nD) : S1x128.Idx → EReal := V m c main_v67
/-- The three input blocks at a point, at their literal types. -/
abbrev sblk (c : Dev nD) (t : Fin cfg0.N) : Vec Ideal S1x128 .f32 := iblk m c 0 t
abbrev kblk (c : Dev nD) (t : Fin cfg0.N) : Vec Ideal S1x128 .f32 := iblk m c 1 t
abbrev xblk (c : Dev nD) (t : Fin cfg0.N) : Vec Ideal S4000x2 .f32 := iblk m c 2 t

/-- The printed index maps over the grid: the resident rows sit at block (0, 0), the angles and the result move
    with the point along the rows. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem sblk_apply (c : Dev nD) (t : Fin cfg0.N) (l : Fin 128) :
    sblk m c t (ix2 (0 : Fin 1) l) = sarr m c (ix2 (0 : Fin 1) l) := by
  show V m c main_v59 (((cfg0.win 0).blk t).view.emb (ix2 (0 : Fin 1) l)) = V m c main_v59 (ix2 (0 : Fin 1) l)
  refine congrArg (V m c main_v59) (funext fun a => Fin.ext ?_)
  obtain ⟨e0, e1, -⟩ := idx_facts t
  match a with
  | ⟨0, _⟩ => show win0_0.index t (0 : Fin 2) * 1 + 1 * 0 = 0; omega
  | ⟨1, _⟩ => show win0_0.index t (1 : Fin 2) * 128 + 1 * l.val = l.val; omega

theorem kblk_apply (c : Dev nD) (t : Fin cfg0.N) (l : Fin 128) :
    kblk m c t (ix2 (0 : Fin 1) l) = karr m c (ix2 (0 : Fin 1) l) := by
  show V m c main_v67 (((cfg0.win 1).blk t).view.emb (ix2 (0 : Fin 1) l)) = V m c main_v67 (ix2 (0 : Fin 1) l)
  refine congrArg (V m c main_v67) (funext fun a => Fin.ext ?_)
  obtain ⟨-, -, e0, e1, -⟩ := idx_facts t
  match a with
  | ⟨0, _⟩ => show win0_1.index t (0 : Fin 2) * 1 + 1 * 0 = 0; omega
  | ⟨1, _⟩ => show win0_1.index t (1 : Fin 2) * 128 + 1 * l.val = l.val; omega

theorem xblk_apply (c : Dev nD) (t : Fin cfg0.N) (r : Fin 4000) (k : Fin 2) (R : Fin 500000)
    (hR : R.val = t.val * 4000 + r.val) :
    xblk m c t (ix2 r k) = xarr m c (ix2 R k) := by
  show V m c main_arg0 (((cfg0.win 2).blk t).view.emb (ix2 r k)) = V m c main_arg0 (ix2 R k)
  refine congrArg (V m c main_arg0) (funext fun a => Fin.ext ?_)
  obtain ⟨-, -, -, -, e0, e1, -⟩ := idx_facts t
  match a with
  | ⟨0, _⟩ => show win0_2.index t (0 : Fin 2) * 4000 + 1 * r.val = R.val; omega
  | ⟨1, _⟩ => show win0_2.index t (1 : Fin 2) * 2 + 1 * k.val = k.val; omega

/-- WHAT POINT `t` WRITES BACK is block `t` of `Garr`. -/
theorem flushed_eq (c : Dev nD) (t : Fin cfg0.N) :
    (dats m 0 c).flushed 3 t
      = ((cfg0.win 3).blk t).view.read (Elt Ideal) (Garr (xarr m c) (sarr m c) (karr m c)) := by
  show (cfg0.win 3).cut (grid0.coords t) ((dats m 0 c).after 3 t) = _
  rw [after0_3, out_eq (sblk m c t) (kblk m c t) (xblk m c t)]
  funext j
  show Bfun (sblk m c t) (kblk m c t) (xblk m c t) j
    = Garr (xarr m c) (sarr m c) (karr m c) (((cfg0.win 3).blk t).view.emb j)
  obtain ⟨-, -, -, -, -, -, e0, e1⟩ := idx_facts t
  have hj0 : (j 0).val < 4000 := (j 0).isLt
  have hj1 : (j 1).val < 256 := (j 1).isLt
  have ht : t.val < 125 := by have h := t.isLt; have e : cfg0.N = 125 := N_0; omega
  have g0 : ((((cfg0.win 3).blk t).view.emb j) 0).val = t.val * 4000 + (j 0).val := by
    show win0_3.index t (0 : Fin 2) * 4000 + 1 * (j 0).val = _; omega
  have g1 : ((((cfg0.win 3).blk t).view.emb j) 1).val = (j 1).val := by
    show win0_3.index t (1 : Fin 2) * 256 + 1 * (j 1).val = _; omega
  unfold Bfun Garr
  simp only [g1]
  by_cases h : (j 1).val < 128
  · simp only [if_pos h]
    rw [sblk_apply, xblk_apply m c t ⟨(j 0).val, hj0⟩ (coordOf (j 1).val)
      ⟨((((cfg0.win 3).blk t).view.emb j) 0).val, idx2_lt0 _⟩ g0]
  · simp only [if_neg h]
    rw [kblk_apply]

/-- An index of the result is in point `t`'s block iff its row is among the point's 4000. -/
theorem mem_blk (t : Fin cfg0.N) (i : S500000x256.Idx) :
    i ∈ ((cfg0.win 3).blk t).view.set ↔ ∀ a : Fin 2, win0_3.index t a * S4000x256.size a ≤ (i a).val
      ∧ (i a).val < win0_3.index t a * S4000x256.size a + S4000x256.size a := by
  show i ∈ ((View.whole main_v68).slice (win0_3.rect t)).set ↔ _
  rw [View.set_slice_whole, Rect.mem_set_unit]
  exact Iff.rfl

/-- Every index of the result is in the block of the point its row names. -/
theorem cover (i : S500000x256.Idx) :
    ∃ t : Fin cfg0.N, (cfg0.win 3).flush t = true ∧ i ∈ ((cfg0.win 3).blk t).view.set := by
  have hi0 : (i 0).val < 500000 := (i 0).isLt
  have hi1 : (i 1).val < 256 := (i 1).isLt
  refine ⟨⟨(i 0).val / 4000, by rw [show cfg0.N = 125 from N_0]; omega⟩, flush0_3 _, ?_⟩
  rw [mem_blk]
  obtain ⟨-, -, -, -, -, -, e0, e1⟩ := idx_facts ⟨(i 0).val / 4000, by rw [show cfg0.N = 125 from N_0]; omega⟩
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 256 ≤ (i 1).val ∧ (i 1).val < win0_3.index _ (1 : Fin 2) * 256 + 256
    rw [e1]; omega

/-- THE RESULT ARRAY of the region after the run. -/
theorem final (c : Dev nD) : (dats m 0 c).arrAt 3 cfg0.N = Garr (xarr m c) (sarr m c) (karr m c) :=
  (dats m 0 c).arrAt_eq_of_cover 3 (Garr (xarr m c) (sarr m c) (karr m c)) (fun t _ => flushed_eq m c t) cover

end Cert.KernelIdeal.KValue

end
-- ==== Proof.KernelRun.lean ====
/-
  The kernel program's three results after its run.

  After the region the program reshapes the [500000, 256] result to [500000, 1, 256] and fills the mask and the
  positions with constants. The region's array ends at `Garr` (KernelValue), the reshape reads it at the same
  row-major position, and the two fills never look at it.
-/
import proofs.«400672_j5978594476425_3_alg».proof.Proof.KernelValue
import Idealize.ShloMosaic.Lib.StableHlo.Run
import Idealize.ShloMosaic.Lib.Pipeline.FrameSuffix

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.PosEnc

variable (m : (ℓ : Loc nD τ sig) → Buf (Elt Ideal) ℓ) (ρ : Dev nD → PrngReg)

/-- The features result: the region's array viewed [500000, 1, 256]. -/
def feats (c : Dev nD) : S500000x1x256.Idx → EReal :=
  shapeCast S500000x1x256 (Garr (xarr m c) (sarr m c) (karr m c)) shapeCasts_S500000x256_S500000x1x256

/-- The mask result: all false. -/
def maskv : S500000x1.Idx → BitVec 1 := broadcastInDim S500000x1 ![] bcast_S_S500000x1 (constantI S_ 1 0#1)

/-- The positions result: all zero. -/
def posv : S500000x1x1x2.Idx → EReal :=
  broadcastInDim S500000x1x1x2 ![] bcast_S_S500000x1x1x2 (constant (F := Ideal) S_ .f32 0x00000000#32)

theorem tail_feats (c : Dev nD) :
    Pipeline.afterTail₀ cfgs (dats m) 0 (V0 m) [hostOps1] c main_v69 = feats m c := by
  unfold Pipeline.afterTail₀
  show StableHlo.after hostOps1 _ (Proc.devRef .tc main_v69) = _
  after_results
  unfold feats
  funext i
  show shapeCast S500000x1x256 (Pipeline.withArrays spec0 c (V0 m c) (fun w => (dats m 0 c).arrAt w cfg0.N)
    (Proc.devRef .tc (Pipeline.arrRef spec0 3))) shapeCasts_S500000x256_S500000x1x256 i = _
  rw [Pipeline.withArrays_arr spec0 launch0.win.arr_inj c _ _ 3, final]

theorem tail_mask (c : Dev nD) :
    Pipeline.afterTail₀ cfgs (dats m) 0 (V0 m) [hostOps1] c main_v70 = maskv := by
  unfold Pipeline.afterTail₀
  show StableHlo.after hostOps1 _ (Proc.devRef .tc main_v70) = _
  after_results
  rfl

theorem tail_pos (c : Dev nD) :
    Pipeline.afterTail₀ cfgs (dats m) 0 (V0 m) [hostOps1] c main_v71 = posv := by
  unfold Pipeline.afterTail₀
  show StableHlo.after hostOps1 _ (Proc.devRef .tc main_v71) = _
  after_results
  rfl

theorem rest_v69 : main_v69 ∈ Pipeline.restRefs sig (cfgs 0).spec :=
  Pipeline.mem_restRefs_of main_v69 rfl (by decide : ∀ w : Fin 4, (spec0 w).arr.view.ref ≠ main_v69)
theorem rest_v70 : main_v70 ∈ Pipeline.restRefs sig (cfgs 0).spec :=
  Pipeline.mem_restRefs_of main_v70 rfl (by decide : ∀ w : Fin 4, (spec0 w).arr.view.ref ≠ main_v70)
theorem rest_v71 : main_v71 ∈ Pipeline.restRefs sig (cfgs 0).spec :=
  Pipeline.mem_restRefs_of main_v71 rfl (by decide : ∀ w : Fin 4, (spec0 w).arr.view.ref ≠ main_v71)

/-- The kernel program's run: the three results named, the argument unchanged. -/
theorem run : θ_run defs (onTc (τ := τ) (main (F := Ideal))) ⟨m, fun _ => 0, ρ⟩ fun r => ∀ c : Dev nD,
      r.2.mem ((c.tc : Thread nD τ).loc main_v69) = feats m c
      ∧ r.2.mem ((c.tc : Thread nD τ).loc main_v70) = maskv
      ∧ r.2.mem ((c.tc : Thread nD τ).loc main_v71) = posv
      ∧ r.2.mem ((c.tc : Thread nD τ).loc main_arg0) = m ((c.tc : Thread nD τ).loc main_arg0) :=
  (θ_run defs _ _).mono (fun r h c => ⟨((h c).2 main_v69 rest_v69).trans (tail_feats m c),
      ((h c).2 main_v70 rest_v70).trans (tail_mask m c),
      ((h c).2 main_v71 rest_v71).trans (tail_pos m c),
      ((h c).1 2).trans (((dats m 0 c).arrAt_in 2 rfl _).trans ((A_eq m c 2).trans (V_main_arg0 m c)))⟩)
    (run_main m ρ)

end Cert.KernelIdeal.KValue

end
-- ==== Proof.KernelHost.lean ====
/-
  The two resident rows as the kernel's region finds them.

  The first operand is the table of 64 scales repeated four times each (`broadcast` to [64, 4], flattened to 256),
  cut to its first 128 entries and viewed [1, 128]: entry `l` is the scale of index `l / 4`. The table is computed by
  the same lines as the reference's, so it is the reference's table, term for term. The second operand is
  `where (l & 1 ≠ 0, 1.0, 0.0)` over 128 lanes, viewed [1, 128]: entry `l` is 1 for odd `l` and 0 for even `l`.
-/
import proofs.«400672_j5978594476425_3_alg».proof.Proof.KernelValue
import proofs.«400672_j5978594476425_3_alg».proof.Proof.Gen.ReferenceIdeal.Read
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen
open Cert.KernelIdeal.KValue (sarr karr)

variable (m : (ℓ : Loc nD τ sig) → Buf (Elt Ideal) ℓ)

/-- The reference's table of scales (64 entries). -/
abbrev scales : S64.Idx → EReal := Cert.ReferenceIdeal.Read.val_main_v57 (F := Ideal)

set_option maxHeartbeats 4000000 in
/-- The scales operand, as the host lines before the region leave it. -/
theorem V_scales (c : Dev nD) : sarr m c
    = shapeCast S1x128 (extractStridedSlice S128 ![0] (shapeCast S256
        (broadcastInDim S64x4 ![0] bcast_S64_S64x4_0 scales) shapeCasts_S64x4_S256) slices_S256_S128_0)
        shapeCasts_S128_S1x128 := by
  dsimp only [sarr, V, V0]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp
  rfl

/-- Entry `l` of the scales operand is the scale of index `l / 4`. -/
theorem scales_apply (c : Dev nD) (l : Fin 128) :
    sarr m c (ix2 (0 : Fin 1) l)
      = scales (ix1 (⟨l.val / 4, by have := l.isLt; omega⟩ : Fin 64)) := by
  have hl : l.val < 128 := l.isLt
  rw [V_scales]
  rw [shapeCast_apply _ shapeCasts_S128_S1x128 (ix2 (0 : Fin 1) l) (ix1 l)
    (by rw [Shape.rowMajor_val_one, Shape.rowMajor_val_two]; show l.val = 0 * 128 + l.val; omega)]
  rw [extractStridedSlice_apply ![0] _ slices_S256_S128_0 (ix1 l) (ix1 (⟨l.val, by omega⟩ : Fin 256))
    (fun a => match a with | ⟨0, _⟩ => by show l.val = 0 + l.val; omega)]
  rw [shapeCast_apply _ shapeCasts_S64x4_S256 (ix1 (⟨l.val, by omega⟩ : Fin 256))
    (ix2 (⟨l.val / 4, by omega⟩ : Fin 64) (⟨l.val % 4, by omega⟩ : Fin 4))
    (by rw [Shape.rowMajor_val_one, Shape.rowMajor_val_two]; show l.val / 4 * 4 + l.val % 4 = l.val; omega)]
  exact broadcastInDim_apply ![0] bcast_S64_S64x4_0 scales _ (ix1 (⟨l.val / 4, by omega⟩ : Fin 64))
    (fun a => match a with
      | ⟨0, _⟩ => by show l.val / 4 = if (64 : Nat) = 1 then 0 else l.val / 4; rw [if_neg (by decide)])

/-- The lane test of the constants row. -/
theorem lane_odd : ∀ l : Fin 128, IntOp.cmpi .ne (IntOp.andi (BitVec.ofNat 32 l.val) 1#32) 0#32
    = if l.val % 2 = 1 then 1#1 else 0#1 := by decide +kernel

theorem one_f32 : Ideal.ofBits .f32 0x3F800000#32 = 1 := by
  simp [Ideal.ofBits, Ideal.ieee]
  norm_cast
  norm_num

set_option maxHeartbeats 4000000 in
/-- The constants operand, as the host lines before the region leave it. -/
theorem V_consts (c : Dev nD) : karr m c
    = shapeCast S1x128 (select (cmpi .ne (andi (iotaInDim S128 32 0) (broadcastInDim S128 ![] bcast_S_S128 (constantI S_ 32 1#32)))
          (broadcastInDim S128 ![] bcast_S_S128 (constantI S_ 32 0#32)))
        (broadcastInDim S128 ![] bcast_S_S128 (constant (F := Ideal) S_ .f32 0x3F800000#32))
        (broadcastInDim S128 ![] bcast_S_S128 (constant (F := Ideal) S_ .f32 0x00000000#32))) shapeCasts_S128_S1x128 := by
  dsimp only [karr, V, V0]
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    List.flatten_cons, List.flatten_nil, List.append_nil, List.cons_append, List.nil_append]
  after_results_simp
  rfl

/-- Entry `l` of the constants operand: 1 on the odd lanes, 0 on the even ones. -/
theorem consts_apply (c : Dev nD) (l : Fin 128) :
    karr m c (ix2 (0 : Fin 1) l) = if l.val % 2 = 1 then 1 else 0 := by
  rw [V_consts]
  rw [shapeCast_apply _ shapeCasts_S128_S1x128 (ix2 (0 : Fin 1) l) (ix1 l)
    (by rw [Shape.rowMajor_val_one, Shape.rowMajor_val_two]; show l.val = 0 * 128 + l.val; omega)]
  rw [select_apply]
  rw [broadcastInDim_apply ![] bcast_S_S128 (constant (F := Ideal) S_ .f32 0x3F800000#32) (ix1 l) ix0 (fun a => a.elim0),
    broadcastInDim_apply ![] bcast_S_S128 (constant (F := Ideal) S_ .f32 0x00000000#32) (ix1 l) ix0 (fun a => a.elim0)]
  show Scalar.select (IntOp.cmpi .ne (IntOp.andi (BitVec.ofNat 32 l.val)
      (broadcastInDim S128 ![] bcast_S_S128 (constantI S_ 32 1#32) (ix1 l)))
      (broadcastInDim S128 ![] bcast_S_S128 (constantI S_ 32 0#32) (ix1 l)))
    (Ideal.ofBits .f32 0x3F800000#32) (Ideal.ofBits .f32 0x00000000#32) = _
  rw [broadcastInDim_apply ![] bcast_S_S128 (constantI S_ 32 1#32) (ix1 l) ix0 (fun a => a.elim0),
    broadcastInDim_apply ![] bcast_S_S128 (constantI S_ 32 0#32) (ix1 l) ix0 (fun a => a.elim0)]
  show Scalar.select (IntOp.cmpi .ne (IntOp.andi (BitVec.ofNat 32 l.val) 1#32) 0#32)
    (Ideal.ofBits .f32 0x3F800000#32) (Ideal.ofBits .f32 0x00000000#32) = _
  rw [lane_odd l, one_f32, Ideal.ofBits_zero_f32]
  split
  · exact select_one _ _
  · exact select_zero _ _

end Cert.KernelIdeal.Host

end
-- ==== Proof.ScaleZero.lean ====
/-
  The reference's table of scales is `2 ^ s` computed on 32-bit words by six rounds of square-and-multiply, then
  converted to a float. For `s ≥ 32` the result is the word zero, hence the real number zero.

  Why: the sixth round multiplies the running product by the fifth square of 2, which is `2 ^ 32` and wraps to
  the word 0, exactly when bit 5 of `s` is set — and for `32 ≤ s < 64` it is set. So the product is `p · 0 = 0`
  whatever the first five rounds left in `p`. Nothing else of the table is evaluated here.
-/
import proofs.«400672_j5978594476425_3_alg».proof.Proof.Gen.ReferenceIdeal.Read
import Idealize.ShloMosaic.Lib.ValueIdx
import Idealize.ShloMosaic.PureOps.Ideal

noncomputable section

namespace Cert.ReferenceIdeal.Scale

open Idealize.ShloMosaic Idealize.ShloMosaic.ValueIdx Cert.ReferenceIdeal Cert.ReferenceIdeal.Read

/-- Squaring 2 five times on 32-bit words gives `2 ^ 32`, the word zero. -/
theorem sq5_zero (i : S_.Idx) : val_main_v46 (F := Ideal) i = 0#32 := by
  rw [val_main_v46_apply, val_main_v38_apply, val_main_v30_apply, val_main_v22_apply, val_main_v14_apply,
    val_main_c_6_apply, val_main_c_7_apply]
  decide

/-- Bit 5 of `s`, read the way the program reads it (five shifts right by one, then `& 1`, then `≠ 0`), is set for
    `32 ≤ s < 64`. -/
theorem bit5_word : ∀ s : Fin 64, 32 ≤ s.val →
    IntOp.cmpi .ne (IntOp.andi (IntOp.shrui .host (IntOp.shrui .host (IntOp.shrui .host (IntOp.shrui .host
      (IntOp.shrui .host (BitVec.ofNat 32 s.val) 1#32) 1#32) 1#32) 1#32) 1#32) 1#32) 0#32 = 1#1 := by
  decide +kernel

/-- The sixth round's test at `s`. -/
theorem bit5 (s : Fin 64) (h : 32 ≤ s.val) : val_main_call6_v1 (F := Ideal) (ix1 s) = 1#1 := by
  rw [val_main_call6_v1_apply, val_main_v50_apply, val_main_v48_apply, val_main_v40_apply, val_main_v32_apply,
    val_main_v24_apply, val_main_v16_apply, val_main_v2_apply,
    val_main_v15_apply, val_main_c_8_apply, val_main_v23_apply, val_main_c_10_apply, val_main_v31_apply,
    val_main_c_12_apply, val_main_v39_apply, val_main_c_14_apply, val_main_v47_apply, val_main_c_16_apply,
    val_main_v49_apply, val_main_c_17_apply, val_main_call6_v0_apply, val_main_call6_c_apply]
  exact bit5_word s h

/-- The integer power at `s ≥ 32` is the word zero. -/
theorem pow_zero (s : Fin 64) (h : 32 ≤ s.val) : val_main_v53 (F := Ideal) (ix1 s) = 0#32 := by
  rw [val_main_v53_apply, bit5 s h, select_one, val_main_v52_apply, val_main_v51_apply, sq5_zero]
  show val_main_v45 (F := Ideal) (ix1 s) * 0#32 = 0#32
  exact BitVec.mul_zero

/-- So the scale at `s ≥ 32` is the real number zero. -/
theorem scale_zero (s : Fin 64) (h : 32 ≤ s.val) : val_main_v57 (F := Ideal) (ix1 s) = 0 := by
  rw [val_main_v57_apply, pow_zero s h]
  show ((((0#32 : BitVec 32).toInt : ℝ)) : EReal) = 0
  simp

end Cert.ReferenceIdeal.Scale

end
-- ==== Proof.RefIsG.lean ====
/-
  The reference's feature array IS `G` of its argument and its own table of scales.

  The reference multiplies the angles (in radians) by the 64 scales, takes sine and cosine of the latitude and of the
  longitude products, stacks the four [500000, 64] arrays on a new last axis and flattens [64, 4] to 256 lanes. So
  lane `j` is piece `j % 4` of the stack (0: sin lat, 1: cos lat, 2: sin lon, 3: cos lon) at scale `j / 4`: the sine on
  the even lanes and the cosine on the odd ones, of the latitude when `(j / 2) % 2 = 0` and the longitude otherwise.
-/
import proofs.«400672_j5978594476425_3_alg».proof.Proof.Gen.ReferenceIdeal.Read
import proofs.«400672_j5978594476425_3_alg».proof.Proof.Spec
import Idealize.ShloMosaic.Lib.Pipeline.Value
import Idealize.ShloMosaic.Lib.ValueIdx

set_option maxRecDepth 16384

noncomputable section

namespace Cert.ReferenceIdeal.RefValue

open Idealize.ShloMosaic Idealize.ShloMosaic.ValueIdx Cert.ReferenceIdeal Cert.ReferenceIdeal.Read Cert.PosEnc

/-- The argument array's type, as the generated stages take it. -/
abbrev Arr : Type := (⟨S500000x2, .f32⟩ : BufTy).Contents (Elt Ideal)

/-- The reference's table of scales. -/
abbrev scales : SSc.Idx → EReal := val_main_v57 (F := Ideal)

/-! ## The four stacked pieces at (row, scale) -/

theorem piece_sin_lat (x : Arr) (b : Fin 500000) (s : Fin 64) :
    val_main_v72 (F := Ideal) x (ix3 b s (0 : Fin 1))
      = Ideal.sin ((x (ix2 b (0 : Fin 2)) * degRad) * scales (ix1 s)) := by
  rw [val_main_v72_apply, val_main_v68_apply, val_main_v62_apply, val_main_v60_apply, val_main_v61_apply,
    val_main_v58_apply, val_main_v59_apply, val_main_v1_apply, val_main_v0_apply, val_main_cst_apply]
  have e1 : idx_main_v58 (idx_main_v60 (idx_main_v72 (ix3 b s (0 : Fin 1)))) = ix2 b (0 : Fin 2) := by
    funext a; match a with | ⟨0, _⟩ => rfl | ⟨1, _⟩ => rfl
  have e2 : idx_main_v59 (idx_main_v61 (idx_main_v72 (ix3 b s (0 : Fin 1)))) = ix1 s := by
    funext a; match a with | ⟨0, _⟩ => rfl
  rw [e1, e2]; rfl

theorem piece_cos_lat (x : Arr) (b : Fin 500000) (s : Fin 64) :
    val_main_v73 (F := Ideal) x (ix3 b s (0 : Fin 1))
      = Ideal.cos ((x (ix2 b (0 : Fin 2)) * degRad) * scales (ix1 s)) := by
  rw [val_main_v73_apply, val_main_v69_apply, val_main_v62_apply, val_main_v60_apply, val_main_v61_apply,
    val_main_v58_apply, val_main_v59_apply, val_main_v1_apply, val_main_v0_apply, val_main_cst_apply]
  have e1 : idx_main_v58 (idx_main_v60 (idx_main_v73 (ix3 b s (0 : Fin 1)))) = ix2 b (0 : Fin 2) := by
    funext a; match a with | ⟨0, _⟩ => rfl | ⟨1, _⟩ => rfl
  have e2 : idx_main_v59 (idx_main_v61 (idx_main_v73 (ix3 b s (0 : Fin 1)))) = ix1 s := by
    funext a; match a with | ⟨0, _⟩ => rfl
  rw [e1, e2]; rfl

theorem piece_sin_lon (x : Arr) (b : Fin 500000) (s : Fin 64) :
    val_main_v74 (F := Ideal) x (ix3 b s (0 : Fin 1))
      = Ideal.sin ((x (ix2 b (1 : Fin 2)) * degRad) * scales (ix1 s)) := by
  rw [val_main_v74_apply, val_main_v70_apply, val_main_v67_apply, val_main_v65_apply, val_main_v66_apply,
    val_main_v63_apply, val_main_v64_apply, val_main_v1_apply, val_main_v0_apply, val_main_cst_apply]
  have e1 : idx_main_v63 (idx_main_v65 (idx_main_v74 (ix3 b s (0 : Fin 1)))) = ix2 b (1 : Fin 2) := by
    funext a; match a with | ⟨0, _⟩ => rfl | ⟨1, _⟩ => rfl
  have e2 : idx_main_v64 (idx_main_v66 (idx_main_v74 (ix3 b s (0 : Fin 1)))) = ix1 s := by
    funext a; match a with | ⟨0, _⟩ => rfl
  rw [e1, e2]; rfl

theorem piece_cos_lon (x : Arr) (b : Fin 500000) (s : Fin 64) :
    val_main_v75 (F := Ideal) x (ix3 b s (0 : Fin 1))
      = Ideal.cos ((x (ix2 b (1 : Fin 2)) * degRad) * scales (ix1 s)) := by
  rw [val_main_v75_apply, val_main_v71_apply, val_main_v67_apply, val_main_v65_apply, val_main_v66_apply,
    val_main_v63_apply, val_main_v64_apply, val_main_v1_apply, val_main_v0_apply, val_main_cst_apply]
  have e1 : idx_main_v63 (idx_main_v65 (idx_main_v75 (ix3 b s (0 : Fin 1)))) = ix2 b (1 : Fin 2) := by
    funext a; match a with | ⟨0, _⟩ => rfl | ⟨1, _⟩ => rfl
  have e2 : idx_main_v64 (idx_main_v66 (idx_main_v75 (ix3 b s (0 : Fin 1)))) = ix1 s := by
    funext a; match a with | ⟨0, _⟩ => rfl
  rw [e1, e2]; rfl

/-! ## The stack, read at (row, scale, k) -/

/-- Entry `k` of the stack of four at (row `b`, scale `s`) is piece `k` there. -/
theorem stack_apply (x : Arr) (i : S500000x64x4.Idx) (b : Fin 500000) (s : Fin 64)
    (hb : (i 0).val = b.val) (hs : (i 1).val = s.val) (k : Nat) (hk : k < 4) (hik : (i 2).val = k)
    (y : S500000x64x1.Idx → EReal)
    (hy : [(⟨S500000x64x1, val_main_v72 (F := Ideal) x⟩ : (s : Shape) × (s.Idx → EReal)),
        ⟨S500000x64x1, val_main_v73 (F := Ideal) x⟩, ⟨S500000x64x1, val_main_v74 (F := Ideal) x⟩,
        ⟨S500000x64x1, val_main_v75 (F := Ideal) x⟩][k]'(by simpa using hk) = ⟨S500000x64x1, y⟩) :
    val_main_v76 (F := Ideal) x i = y (ix3 b s (0 : Fin 1)) := by
  unfold val_main_v76
  refine concatenate_apply_piece (2 : Fin 3) _ _ i k (by simpa using hk) S500000x64x1 y hy rfl k ?_
    (ix3 b s (0 : Fin 1)) ?_ ?_
  · obtain rfl | rfl | rfl | rfl : k = 0 ∨ k = 1 ∨ k = 2 ∨ k = 3 := by omega
    all_goals rfl
  · intro a ha
    match a with
    | ⟨0, _⟩ => exact hb.symm
    | ⟨1, _⟩ => exact hs.symm
    | ⟨2, _⟩ => exact absurd rfl ha
  · show k + 0 = (i 2).val
    omega

/-! ## The whole array -/

theorem ref_eq (x : Arr) : val_main_v77 (F := Ideal) x = G x scales := by
  funext i
  obtain ⟨b, z, j, rfl⟩ : ∃ (b : Fin 500000) (z : Fin 1) (j : Fin 256), i = ix3 b z j := ⟨i 0, i 1, i 2, eq_ix3 i⟩
  have hz : z.val = 0 := by have := z.isLt; omega
  have hj : j.val < 256 := j.isLt
  have hb : b.val < 500000 := b.isLt
  rw [val_main_v77_apply]
  show val_main_v76 (F := Ideal) x (idx_main_v77 (ix3 b z j)) = feat x scales b j
  have i0 : ((idx_main_v77 (ix3 b z j)) 0).val = b.val := by
    show ((b.val * 1 + z.val) * 256 + j.val) / 256 = b.val; omega
  have i1 : ((idx_main_v77 (ix3 b z j)) 1).val = (scaleOf j).val := by
    show ((b.val * 1 + z.val) * 256 + j.val) / 4 % 64 = j.val / 4; omega
  have i2 : ((idx_main_v77 (ix3 b z j)) 2).val = j.val % 4 := by
    show ((b.val * 1 + z.val) * 256 + j.val) % 4 = j.val % 4; omega
  unfold feat trig
  obtain h | h | h | h : j.val % 4 = 0 ∨ j.val % 4 = 1 ∨ j.val % 4 = 2 ∨ j.val % 4 = 3 := by omega
  · rw [stack_apply x _ b (scaleOf j) i0 i1 0 (by decide) (i2.trans h) (val_main_v72 (F := Ideal) x) rfl, piece_sin_lat,
      if_neg (by omega), show coordOf j.val = (0 : Fin 2) from Fin.ext (by show (j.val / 2) % 2 = 0; omega)]
  · rw [stack_apply x _ b (scaleOf j) i0 i1 1 (by decide) (i2.trans h) (val_main_v73 (F := Ideal) x) rfl, piece_cos_lat,
      if_pos (by omega), show coordOf j.val = (0 : Fin 2) from Fin.ext (by show (j.val / 2) % 2 = 0; omega)]
  · rw [stack_apply x _ b (scaleOf j) i0 i1 2 (by decide) (i2.trans h) (val_main_v74 (F := Ideal) x) rfl, piece_sin_lon,
      if_neg (by omega), show coordOf j.val = (1 : Fin 2) from Fin.ext (by show (j.val / 2) % 2 = 1; omega)]
  · rw [stack_apply x _ b (scaleOf j) i0 i1 3 (by decide) (i2.trans h) (val_main_v75 (F := Ideal) x) rfl, piece_cos_lon,
      if_pos (by omega), show coordOf j.val = (1 : Fin 2) from Fin.ext (by show (j.val / 2) % 2 = 1; omega)]

end Cert.ReferenceIdeal.RefValue

end
-- ==== Proof.Equal.lean ====
/-
  The kernel's features are the reference's.

  Read at (row, 0, lane), the kernel's result is: on the first 128 lanes the sine or cosine of angle times the
  operand row's entry, which is the reference's scale of index lane / 4; on the other 128 lanes the constant 0 or 1
  by the lane's parity. That is `featK` over the reference's table of scales, and since that table is zero from index
  32 on (ScaleZero), `featK` is `feat` there — the reference's own value (RefIsG).
-/
import proofs.«400672_j5978594476425_3_alg».proof.Proof.KernelRun
import proofs.«400672_j5978594476425_3_alg».proof.Proof.KernelHost
import proofs.«400672_j5978594476425_3_alg».proof.Proof.ScaleZero
import proofs.«400672_j5978594476425_3_alg».proof.Proof.RefIsG

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.PosEnc

variable (m : (ℓ : Loc nD τ sig) → Buf (Elt Ideal) ℓ)

/-- The reference's table of scales. -/
abbrev rscales : SSc.Idx → EReal := Cert.ReferenceIdeal.Read.val_main_v57 (F := Ideal)

theorem rscales_zero (s : Fin 64) (h : 32 ≤ s.val) : rscales (ix1 s) = 0 :=
  Cert.ReferenceIdeal.Scale.scale_zero s h

/-- The kernel's features, index by index, are `G` of the argument array and the reference's scales. -/
theorem feats_eq (c : Dev nD) :
    feats m c = G (m ((c.tc : Thread nD τ).loc main_arg0)) rscales := by
  funext i
  obtain ⟨b, z, j, rfl⟩ : ∃ (b : Fin 500000) (z : Fin 1) (j : Fin 256), i = ix3 b z j := ⟨i 0, i 1, i 2, eq_ix3 i⟩
  have hz : z.val = 0 := by have := z.isLt; omega
  have hj : j.val < 256 := j.isLt
  unfold feats
  rw [shapeCast_apply _ shapeCasts_S500000x256_S500000x1x256 (ix3 b z j) (ix2 b j)
    (by rw [Shape.rowMajor_val_two, Shape.rowMajor_val_three]
        show b.val * 256 + j.val = (b.val * 1 + z.val) * 256 + j.val; omega)]
  show Garr (xarr m c) (sarr m c) (karr m c) (ix2 b j) = feat _ rscales b j
  rw [← featK_eq_feat _ rscales rscales_zero]
  unfold Garr featK
  show (if j.val < 128 then
      trig j.val ((xarr m c (ix2 (⟨b.val, _⟩ : Fin 500000) (coordOf j.val)) * degRad)
        * sarr m c (ix2 (0 : Fin 1) (⟨j.val % 128, _⟩ : Fin 128)))
    else karr m c (ix2 (0 : Fin 1) (⟨j.val % 128, _⟩ : Fin 128)))
    = if j.val < 128 then feat _ rscales b j else (if j.val % 2 = 1 then 1 else 0)
  by_cases h : j.val < 128
  · simp only [if_pos h]
    rw [Cert.KernelIdeal.Host.scales_apply]
    have hx : xarr m c = m ((c.tc : Thread nD τ).loc main_arg0) := V_main_arg0 m c
    rw [hx]
    unfold feat
    have e : (⟨(⟨j.val % 128, Nat.mod_lt _ (by decide)⟩ : Fin 128).val / 4, by omega⟩ : Fin 64) = scaleOf j :=
      Fin.ext (by show j.val % 128 / 4 = j.val / 4; rw [Nat.mod_eq_of_lt h])
    rw [e]
  · simp only [if_neg h]
    rw [Cert.KernelIdeal.Host.consts_apply]
    have e : j.val % 128 % 2 = j.val % 2 := by omega
    show (if j.val % 128 % 2 = 1 then (1 : EReal) else 0) = _
    rw [e]

end Cert.KernelIdeal.KValue

end
-- ==== Proof.lean ====
/-
  A positional encoding of latitude/longitude pairs: 256 features per row, four per scale `2 ^ s` (computed on
  32-bit integers, so the scales of index 32 and above are zero), `[sin lat·sc, cos lat·sc, sin lon·sc, cos lon·sc]`.

  The reference computes all 256 lanes. The kernel computes the first 128 — one sine or cosine per lane, the lane's
  bits choosing the function and the angle — and fills the other 128, whose scale is zero, with the constants
  `sin 0 = 0`, `cos 0 = 1`. On the extended reals the two agree index by index: below lane 128 they are the same
  expression of the same table of scales; from lane 128 on the reference's angle is `a · 0 = 0` for every `a`.

  The modules: Spec (the function `G`, and that the constant fill is `G` when the high scales vanish), ScaleZero (they
  vanish), RefIsG (the reference's result is `G`), KernelBlock / KernelValue / KernelRun (what the kernel's run leaves:
  one block, the whole array, the three results), KernelHost (the two rows the kernel reads), Equal (the bridge).
  The three frames are the generated ones; the idealization rewrote nothing, so `preserves` is `True`.
-/
import proofs.«400672_j5978594476425_3_alg».proof.Defs
import proofs.«400672_j5978594476425_3_alg».proof.Proof.Gen.Kernel
import proofs.«400672_j5978594476425_3_alg».proof.Proof.Gen.Kernel.Skeleton
import proofs.«400672_j5978594476425_3_alg».proof.Proof.Gen.Kernel.Launch
import proofs.«400672_j5978594476425_3_alg».proof.Proof.Gen.Kernel.Points
import proofs.«400672_j5978594476425_3_alg».proof.Proof.Gen.Kernel.Frame
import proofs.«400672_j5978594476425_3_alg».proof.Proof.Gen.KernelIdeal
import proofs.«400672_j5978594476425_3_alg».proof.Proof.Gen.KernelIdeal.Skeleton
import proofs.«400672_j5978594476425_3_alg».proof.Proof.Gen.KernelIdeal.Launch
import proofs.«400672_j5978594476425_3_alg».proof.Proof.Gen.KernelIdeal.Points
import proofs.«400672_j5978594476425_3_alg».proof.Proof.Gen.KernelIdeal.Frame
import proofs.«400672_j5978594476425_3_alg».proof.Proof.Gen.ReferenceIdeal
import proofs.«400672_j5978594476425_3_alg».proof.Proof.Gen.Pre_finite_inputs
import proofs.«400672_j5978594476425_3_alg».proof.Proof.Gen.ReferenceIdeal.Run
import proofs.«400672_j5978594476425_3_alg».proof.Proof.Gen.ReferenceIdeal.Read
import proofs.«400672_j5978594476425_3_alg».proof.Proof.Equal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a host program: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the features at `G` of the (agreeing) argument arrays and the reference's scales, the mask
    all false and the positions all zero. -/
theorem algebraic : Cert.algebraic_KernelIdeal_ReferenceIdeal := by
  intro m ρ m' ρ' _ hagree
  refine ⟨fun c => Cert.KernelIdeal.KValue.feats m c, fun _ => Cert.KernelIdeal.KValue.maskv,
    fun _ => Cert.KernelIdeal.KValue.posv, Cert.KernelIdeal.KValue.run m ρ, ?_⟩
  refine (θ_run Cert.ReferenceIdeal.defs _ _).mono (fun _ h c => ⟨(h c).1.trans ?_, (h c).2.1, (h c).2.2.1, (h c).2.2.2⟩)
    (Cert.ReferenceIdeal.Value.run (F := Ideal) m' ρ')
  show Cert.ReferenceIdeal.Value.res_main_v77 m' c = Cert.KernelIdeal.KValue.feats m c
  rw [Cert.ReferenceIdeal.Read.val_main_v77_eq, Cert.ReferenceIdeal.RefValue.ref_eq, hagree c,
    Cert.KernelIdeal.KValue.feats_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
